-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S32x64 : Shape := ⟨2, ![32, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S65536x64 .f32) (main_arg1 : FVec F S32x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  main_v8
-- ==== Kernel.lean ====
abbrev S65536x64 : Shape := ⟨2, ![65536, 64]⟩
abbrev S32x64 : Shape := ⟨2, ![32, 64]⟩
abbrev S32x65536x64 : Shape := ⟨3, ![32, 65536, 64]⟩
abbrev S1024x64 : Shape := ⟨2, ![1024, 64]⟩
abbrev S32x1024x64 : Shape := ⟨3, ![32, 1024, 64]⟩
abbrev S1x1024x64 : Shape := ⟨3, ![1, 1024, 64]⟩
abbrev S32x1x64 : Shape := ⟨3, ![32, 1, 64]⟩

abbrev nBuf : Space → Nat
  | .hbm => 3
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S32x64, .f32⟩
  | .hbm, ⟨2, _⟩ => ⟨S32x65536x64, .f32⟩
  | .local _ .vmem, ⟨0, _⟩ => ⟨S1024x64, .f32⟩
  | .local _ .vmem, ⟨1, _⟩ => ⟨S1024x64, .f32⟩
  | .local _ .vmem, ⟨2, _⟩ => ⟨S32x64, .f32⟩
  | .local _ .vmem, ⟨3, _⟩ => ⟨S32x1024x64, .f32⟩
  | .local _ .vmem, ⟨4, _⟩ => ⟨S32x1024x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S32x64_S32x64_0_0 : ∀ a, (![0, 0] : Fin 2 → Nat) a + S32x64.size a ≤ S32x64.size a
  h_S32x64 : 0 < S32x64.numel
  shapeCasts_S1024x64_S1x1024x64 : S1024x64.ShapeCasts S1x1024x64
  shapeCasts_S32x64_S32x1x64 : S32x64.ShapeCasts S32x1x64
  broadcasts_S1x1024x64_S32x1024x64 : S1x1024x64.Broadcasts S32x1024x64
  broadcasts_S32x1x64_S32x1024x64 : S32x1x64.Broadcasts S32x1024x64
  inb_S32x1024x64_S32x1024x64_0_0_0 : ∀ a, (![0, 0, 0] : Fin 3 → Nat) a + S32x1024x64.size a ≤ S32x1024x64.size a
  h_S32x1024x64 : 0 < S32x1024x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024x64.size a ≤ S32x65536x64.size a
  hwx0_2 : ∀ i : grid0.Coords, EltTy.bits .f32 = 32 ∨ (Rect.block (s := S32x65536x64) S32x1024x64.size (cc0_transform_2 i) (hinb0_2 i)).WholeWords (EltTy.packing .f32)

variable [Facts₀]

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S32x64 : Shape := ⟨2, ![32, 64]⟩
abbrev S1x65536x64 : Shape := ⟨3, ![1, 65536, 64]⟩
abbrev S32x1x64 : Shape := ⟨3, ![32, 1, 64]⟩
abbrev S32x65536x64 : Shape := ⟨3, ![32, 65536, 64]⟩

abbrev nBuf : Space → Nat
  | .hbm => 7
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S32x64, .f32⟩
  | .hbm, ⟨2, _⟩ => ⟨S1x65536x64, .f32⟩
  | .hbm, ⟨3, _⟩ => ⟨S32x1x64, .f32⟩
  | .hbm, ⟨4, _⟩ => ⟨S32x65536x64, .f32⟩
  | .hbm, ⟨5, _⟩ => ⟨S32x65536x64, .f32⟩
  | .hbm, ⟨6, _⟩ => ⟨S32x65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S65536x64_S1x65536x64_1_2 : S65536x64.BroadcastsInDim S1x65536x64 (![1, 2] : Fin 2 → Fin S1x65536x64.rank)
  bcast_S32x64_S32x1x64_0_2 : S32x64.BroadcastsInDim S32x1x64 (![0, 2] : Fin 2 → Fin S32x1x64.rank)
  bcast_S1x65536x64_S32x65536x64_0_1_2 : S1x65536x64.BroadcastsInDim S32x65536x64 (![0, 1, 2] : Fin 3 → Fin S32x65536x64.rank)
  bcast_S32x1x64_S32x65536x64_0_1_2 : S32x1x64.BroadcastsInDim S32x65536x64 (![0, 1, 2] : Fin 3 → Fin S32x65536x64.rank)

variable [Facts₀]

class Facts : Prop extends Facts₀ where

variable [Facts]
-- ==== Proof.Differences.lean ====
/-
  Point–centroid differences.

  For points x : [65536, 64] and centroids c : [32, 64] the differences array has the entry
      diffs x c (k, n, d) = x (n, d) - c (k, d)
  at centroid k, point n, coordinate d. The subtraction is the float format's own, whatever the
  instance; over the extended reals it is the subtraction of extended reals.
-/
import Idealize.ShloMosaic.Lib.ValueIdx
import Idealize.ShloMosaic.PureOps.Ideal

noncomputable section

namespace Cert.Differences

open Idealize.ShloMosaic Idealize.ShloMosaic.ValueIdx

variable {F : FTy → Type} [FloatOps F]

/-- Entry (k, n, d): coordinate d of point n minus coordinate d of centroid k. -/
def diffs (x : Vec F ⟨2, ![65536, 64]⟩ .f32) (c : Vec F ⟨2, ![32, 64]⟩ .f32) : Vec F ⟨3, ![32, 65536, 64]⟩ .f32 :=
  fun i => FloatOps.subf (x (ix2 (n0 := 65536) (n1 := 64) (i 1) (i 2))) (c (ix2 (n0 := 32) (n1 := 64) (i 0) (i 2)))

/-- Over the extended reals the entry is the difference of the two extended reals. -/
theorem diffs_ideal (x : Vec Ideal ⟨2, ![65536, 64]⟩ .f32) (c : Vec Ideal ⟨2, ![32, 64]⟩ .f32)
    (k : Fin 32) (n : Fin 65536) (d : Fin 64) :
    diffs x c (ix3 k n d) = (x (ix2 n d) - c (ix2 k d) : EReal) := rfl

end Cert.Differences

end
-- ==== Proof.KernelDifferences.lean ====
/-
  The kernel computes the differences array.

  The grid has 64 points. Point t stages rows 1024 t … 1024 t + 1023 of the points, all of the
  centroids, and writes back the block [all 32 centroids] × [rows 1024 t … 1024 t + 1023] × [all 64
  coordinates] of the output. What the body leaves in that block at (k, r, d) is the staged point
  row r at d minus centroid k at d, that is x (1024 t + r, d) - c (k, d): the differences array read
  through the block. The 64 blocks tile the output (row n lies in the block of point n / 1024), so
  the output ends as the differences array.
-/
import proofs.«117083_j80401787781311_1_alg».proof.Proof.Gen.KernelIdeal.Value
import proofs.«117083_j80401787781311_1_alg».proof.Proof.Differences
import Idealize.ShloMosaic.Lib.Pipeline.Value
import Idealize.ShloMosaic.Lib.ValueIdx

noncomputable section

namespace Cert.KernelIdeal.KernelValue

open Cert.KernelIdeal Cert.KernelIdeal.Gen Cert.KernelIdeal.Value Cert.Differences
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl

/-- The block indices at every grid point: the point rows move with the point, the centroids stay,
    and the output block is the point's along the row axis and the only one along the others. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The staged point rows at (r, d) are x at (1024 t + r, d). -/
theorem points_block (c : Dev nD) (t : Fin cfg0.N) (y : S1024x64.Idx) (i : S65536x64.Idx)
    (h0 : (i 0).val = t.val * 1024 + (y 0).val) (h1 : (i 1).val = (y 1).val) :
    iblk m c 0 t y = V m c main_arg0 i := by
  obtain ⟨e0, e1, -⟩ := block_indices t
  show V m c main_arg0 (((cfg0.win 0).blk t).view.emb y) = V m c main_arg0 i
  refine congrArg (V m c main_arg0) (funext fun a => Fin.ext ?_)
  match a with
  | ⟨0, _⟩ => show win0_0.index t (0 : Fin 2) * 1024 + 1 * (y 0).val = (i 0).val; omega
  | ⟨1, _⟩ => show win0_0.index t (1 : Fin 2) * 64 + 1 * (y 1).val = (i 1).val; omega

/-- The staged centroids at (k, d) are c at (k, d). -/
theorem centroids_block (c : Dev nD) (t : Fin cfg0.N) (y : S32x64.Idx) (i : S32x64.Idx)
    (h0 : (i 0).val = (y 0).val) (h1 : (i 1).val = (y 1).val) :
    iblk m c 1 t y = V m c main_arg1 i := by
  obtain ⟨-, -, e0, e1, -⟩ := block_indices t
  show V m c main_arg1 (((cfg0.win 1).blk t).view.emb y) = V m c main_arg1 i
  refine congrArg (V m c main_arg1) (funext fun a => Fin.ext ?_)
  match a with
  | ⟨0, _⟩ => show win0_1.index t (0 : Fin 2) * 32 + 1 * (y 0).val = (i 0).val; omega
  | ⟨1, _⟩ => show win0_1.index t (1 : Fin 2) * 64 + 1 * (y 1).val = (i 1).val; omega

/-- What point t writes back is the differences array read through the point's output block. -/
theorem flushed_eq (c : Dev nD) (t : Fin cfg0.N) :
    (dats m 0 c).flushed 2 t
      = ((cfg0.win 2).blk t).view.read (Elt F) (diffs (V m c main_arg0) (V m c main_arg1)) := by
  rw [flushed2]
  unfold out0_2
  simp only [View.ld_unit_zero (S := S1024x64) origin2, View.ld_unit_zero (S := S32x64) origin2]
  obtain ⟨-, -, -, -, e0, e1, e2⟩ := block_indices t
  funext j
  show View.canon [⟨r0_2, k0_pay1 (iblk m c 0 t) (iblk m c 1 t)⟩] j
    = diffs (V m c main_arg0) (V m c main_arg1) (((cfg0.win 2).blk t).view.emb j)
  refine (canon2_eq (F := F) (iblk m c 0 t) (iblk m c 1 t) j).trans ?_
  show FloatOps.subf (iblk m c 0 t (ix2_0 j)) (iblk m c 1 t (ix2_1 j)) = _
  have hj0 : ((((cfg0.win 2).blk t).view.emb j) 0).val = win0_2.index t (0 : Fin 3) * 32 + 1 * (j 0).val := rfl
  have hj1 : ((((cfg0.win 2).blk t).view.emb j) 1).val = win0_2.index t (1 : Fin 3) * 1024 + 1 * (j 1).val := rfl
  have hj2 : ((((cfg0.win 2).blk t).view.emb j) 2).val = win0_2.index t (2 : Fin 3) * 64 + 1 * (j 2).val := rfl
  rw [points_block m c t (ix2_0 j)
        (ix2 (n0 := 65536) (n1 := 64) ((((cfg0.win 2).blk t).view.emb j) 1) ((((cfg0.win 2).blk t).view.emb j) 2))
        (by show ((((cfg0.win 2).blk t).view.emb j) 1).val = t.val * 1024 + (j 1).val; omega)
        (by show ((((cfg0.win 2).blk t).view.emb j) 2).val = (j 2).val; omega),
      centroids_block m c t (ix2_1 j)
        (ix2 (n0 := 32) (n1 := 64) ((((cfg0.win 2).blk t).view.emb j) 0) ((((cfg0.win 2).blk t).view.emb j) 2))
        (by show ((((cfg0.win 2).blk t).view.emb j) 0).val = (j 0).val; omega)
        (by show ((((cfg0.win 2).blk t).view.emb j) 2).val = (j 2).val; omega)]
  rfl

/-- An index of the output lies in point t's block iff each coordinate lies in the block's range. -/
theorem mem_block (t : Fin cfg0.N) (i : S32x65536x64.Idx) :
    i ∈ ((cfg0.win 2).blk t).view.set ↔
      ∀ a : Fin 3, win0_2.index t a * S32x1024x64.size a ≤ (i a).val
        ∧ (i a).val < win0_2.index t a * S32x1024x64.size a + S32x1024x64.size a := by
  show i ∈ ((View.whole main_v0).slice (win0_2.rect t)).set ↔ _
  rw [View.set_slice_whole, Rect.mem_set_unit]
  exact Iff.rfl

/-- The 64 blocks tile the output: row n lies in the block of point n / 1024. -/
theorem blocks_cover (i : S32x65536x64.Idx) :
    ∃ t : Fin cfg0.N, (cfg0.win 2).flush t = true ∧ i ∈ ((cfg0.win 2).blk t).view.set := by
  have hi0 : (i 0).val < 32 := (i 0).isLt
  have hi1 : (i 1).val < 65536 := (i 1).isLt
  have hi2 : (i 2).val < 64 := (i 2).isLt
  have hN : (i 1).val / 1024 < cfg0.N := by
    show (i 1).val / 1024 < grid0.N
    rw [N_0]; omega
  refine ⟨⟨(i 1).val / 1024, hN⟩, flush0_2 _, ?_⟩
  obtain ⟨-, -, -, -, e0, e1, e2⟩ := block_indices ⟨(i 1).val / 1024, hN⟩
  rw [mem_block]
  intro a
  match a with
  | ⟨0, _⟩ =>
    show win0_2.index ⟨(i 1).val / 1024, hN⟩ (0 : Fin 3) * 32 ≤ (i 0).val
      ∧ (i 0).val < win0_2.index ⟨(i 1).val / 1024, hN⟩ (0 : Fin 3) * 32 + 32
    omega
  | ⟨1, _⟩ =>
    show win0_2.index ⟨(i 1).val / 1024, hN⟩ (1 : Fin 3) * 1024 ≤ (i 1).val
      ∧ (i 1).val < win0_2.index ⟨(i 1).val / 1024, hN⟩ (1 : Fin 3) * 1024 + 1024
    have e1' : win0_2.index ⟨(i 1).val / 1024, hN⟩ (1 : Fin 3) = (i 1).val / 1024 := e1
    omega
  | ⟨2, _⟩ =>
    show win0_2.index ⟨(i 1).val / 1024, hN⟩ (2 : Fin 3) * 64 ≤ (i 2).val
      ∧ (i 2).val < win0_2.index ⟨(i 1).val / 1024, hN⟩ (2 : Fin 3) * 64 + 64
    omega

/-- After the run the output array is the differences array of the two arguments. -/
theorem final (c : Dev nD) :
    (dats m 0 c).arrAt 2 cfg0.N
      = diffs (m ((c : Thread nD τ).loc main_arg0)) (m ((c : Thread nD τ).loc main_arg1)) :=
  (dats m 0 c).arrAt_eq_of_cover 2 (diffs (V m c main_arg0) (V m c main_arg1))
    (fun t _ => flushed_eq m c t) blocks_cover

/-- Every weakly fair execution of the kernel's program ends with the output at the differences
    array of the arguments and the arguments unchanged. -/
theorem run : θ_run defs (onTc (τ := τ) (main (F := F))) ⟨m, fun _ => 0, ρ⟩ fun r => ∀ c : Dev nD,
      r.2.mem ((c : Thread nD τ).loc main_v0)
        = diffs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.ReferenceDifferences.lean ====
/-
  The reference computes the differences array.

  The reference repeats the points along a new leading axis of extent 32 and the centroids along a
  new middle axis of extent 65536, each in two steps (first the unit axis, then its extent), and
  subtracts. At (k, n, d) the first operand therefore reads x at (n, d) and the second reads c at
  (k, d): the entry of the differences array.
-/
import proofs.«117083_j80401787781311_1_alg».proof.Proof.Gen.ReferenceIdeal.Read
import proofs.«117083_j80401787781311_1_alg».proof.Proof.Differences

noncomputable section

namespace Cert.ReferenceIdeal.RefValue

open Cert.ReferenceIdeal Cert.ReferenceIdeal.Read Cert.Differences
open Idealize.ShloMosaic Idealize.ShloMosaic.ValueIdx

variable {F : FTy → Type} [FloatOps F]

/-- Through both repetitions of the points, (k, n, d) reads (n, d). -/
theorem points_read (i : S32x65536x64.Idx) :
    idx_main_v0 (idx_main_v2 i) = ix2 (n0 := 65536) (n1 := 64) (i 1) (i 2) :=
  funext fun a => Fin.ext (by match a with | ⟨0, _⟩ => rfl | ⟨1, _⟩ => rfl)

/-- Through both repetitions of the centroids, (k, n, d) reads (k, d). -/
theorem centroids_read (i : S32x65536x64.Idx) :
    idx_main_v1 (idx_main_v3 i) = ix2 (n0 := 32) (n1 := 64) (i 0) (i 2) :=
  funext fun a => Fin.ext (by match a with | ⟨0, _⟩ => rfl | ⟨1, _⟩ => rfl)

/-- The reference's result is the differences array of its two arguments. -/
theorem result_eq (x : (⟨S65536x64, .f32⟩ : BufTy).Contents (Elt F)) (c : (⟨S32x64, .f32⟩ : BufTy).Contents (Elt F)) :
    val_main_v4 (F := F) x c = diffs x c := by
  funext i
  rw [val_main_v4_apply, val_main_v2_apply, val_main_v0_apply, val_main_v3_apply, val_main_v1_apply,
    points_read, centroids_read]
  rfl

end Cert.ReferenceIdeal.RefValue

end
-- ==== Proof.lean ====
/-
  Pairwise point–centroid differences: the kernel against its reference.

  Both programs take points x : [65536, 64] and centroids c : [32, 64] and return the array
      out (k, n, d) = x (n, d) - c (k, d)            of shape [32, 65536, 64].
  The kernel walks a grid of 64 points; point t stages rows 1024 t … 1024 t + 1023 of x and all of c,
  forms the block of differences for those rows and every centroid, and writes it back to rows
  1024 t … 1024 t + 1023 of the output. The reference repeats x along a new leading axis and c along
  a new middle axis and subtracts the two whole arrays.

  The two sides apply the same subtraction to the same pair of entries at every index, so no law
  of arithmetic is needed and finiteness of the inputs is never used: the proof is about positions
  only. Proof/Differences.lean names the common array; Proof/KernelDifferences.lean shows that each
  grid point writes the array's own block and that the 64 blocks tile the output, so the kernel's
  output ends as that array; Proof/ReferenceDifferences.lean reads the reference's two repetitions
  at an index and finds the same array. No operation of the kernel is rewritten in its
  idealization, which is therefore the kernel's own text read over the extended reals.
-/
import proofs.«117083_j80401787781311_1_alg».proof.Defs
import proofs.«117083_j80401787781311_1_alg».proof.Proof.Gen.Kernel
import proofs.«117083_j80401787781311_1_alg».proof.Proof.Gen.Kernel.Skeleton
import proofs.«117083_j80401787781311_1_alg».proof.Proof.Gen.Kernel.Launch
import proofs.«117083_j80401787781311_1_alg».proof.Proof.Gen.Kernel.Points
import proofs.«117083_j80401787781311_1_alg».proof.Proof.Gen.Kernel.Frame
import proofs.«117083_j80401787781311_1_alg».proof.Proof.Gen.KernelIdeal
import proofs.«117083_j80401787781311_1_alg».proof.Proof.Gen.KernelIdeal.Skeleton
import proofs.«117083_j80401787781311_1_alg».proof.Proof.Gen.KernelIdeal.Launch
import proofs.«117083_j80401787781311_1_alg».proof.Proof.Gen.KernelIdeal.Points
import proofs.«117083_j80401787781311_1_alg».proof.Proof.Gen.KernelIdeal.Frame
import proofs.«117083_j80401787781311_1_alg».proof.Proof.Gen.ReferenceIdeal
import proofs.«117083_j80401787781311_1_alg».proof.Proof.Gen.Pre_finite_inputs
import proofs.«117083_j80401787781311_1_alg».proof.Proof.Gen.KernelIdeal.Value
import proofs.«117083_j80401787781311_1_alg».proof.Proof.Gen.ReferenceIdeal.Run
import proofs.«117083_j80401787781311_1_alg».proof.Proof.Gen.ReferenceIdeal.Read
import proofs.«117083_j80401787781311_1_alg».proof.Proof.Differences
import proofs.«117083_j80401787781311_1_alg».proof.Proof.KernelDifferences
import proofs.«117083_j80401787781311_1_alg».proof.Proof.ReferenceDifferences
import Idealize.ShloMosaic.Adequacy
import Idealize.ShloMosaic.Init

noncomputable section

namespace Cert.Proof

open Idealize.ShloMosaic Idealize.ShloMosaic.TcCoe Idealize.SL.Sem

/-- The kernel as printed runs to the end and leaves its two arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run to the differences array, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrites no operation of the kernel: nothing to preserve. -/
theorem preserves : Cert.preserves_Kernel_KernelIdeal := trivial

/-- From memories that agree on x and c, the kernel's output ends as the differences array of x and c,
    and so does the reference's result. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v4_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
